-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x64 : Shape := ⟨2, ![128, 64]⟩
abbrev S2x1600000 : Shape := ⟨2, ![2, 1600000]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S1600000 : S_.BroadcastsInDim S1600000 (![] : Fin 0 → Fin S1600000.rank)
  reducesTo_S1600000_S_d0 : S1600000.ReducesTo [0] S_

variable [Facts]

def fn {F : FTy → Type} [FloatOps F] (main_arg0 : FVec F S100000x128 .f32) (main_arg1 : FVec F S128x64 .f32) (main_arg2 : IVec S2x1600000 32) (main_arg3 : FVec F S1600000 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S1600000 .f32 := Host.absf main_arg3
  let main_cst_2 : FVec F S_ .f32 := constant S_ .f32 0x7F800000#32
  let main_v10 : FVec F S1600000 .f32 := broadcastInDim S1600000 ![] bcast_S_S1600000 main_cst_2
  let main_v11 : IVec S1600000 1 := cmpf .olt main_v9 main_v10
  let main_c_3 : IVec S_ 1 := constantI S_ 1 1#1
  let main_v12 : IVec S_ 1 := (fun x v => Host.reduce IntOp.andi x v reducesTo_S1600000_S_d0 h_S_) main_v11 main_c_3
  let main_v13 : IVec S_ 1 := andi main_v8 main_v12
  main_v13
-- ==== Kernel.lean ====
abbrev S100000x128 : Shape := ⟨2, ![100000, 128]⟩
abbrev S128x64 : Shape := ⟨2, ![128, 64]⟩
abbrev S2x1600000 : Shape := ⟨2, ![2, 1600000]⟩
abbrev S1600000 : Shape := ⟨1, ![1600000]⟩
abbrev S100000x64 : Shape := ⟨2, ![100000, 64]⟩
abbrev S5000x128 : Shape := ⟨2, ![5000, 128]⟩
abbrev S5000x64 : Shape := ⟨2, ![5000, 64]⟩
abbrev S1x1600000 : Shape := ⟨2, ![1, 1600000]⟩
abbrev S_ : Shape := ⟨0, ![]⟩
abbrev S1600000x1 : Shape := ⟨2, ![1600000, 1]⟩
abbrev S1600000x64 : Shape := ⟨2, ![1600000, 64]⟩

abbrev nBuf : Space → Nat
  | .hbm => 26
  | .vmem => 9
  | .smem => 0
  | _ => 0

abbrev bufTy : (tb : Table) → Fin (tcTables nBuf tb) → BufTy
  | .hbm, ⟨0, _⟩ => ⟨S100000x128, .f32⟩
  | .hbm, ⟨1, _⟩ => ⟨S128x64, .f32⟩
  | .hbm, ⟨2, _⟩ => ⟨S2x1600000, .i32⟩
  | .hbm, ⟨3, _⟩ => ⟨S1600000, .f32⟩
  | .hbm, ⟨4, _⟩ => ⟨S100000x64, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x64, .f32⟩
  | .hbm, ⟨18, _⟩ => ⟨S1600000x1, .f32⟩
  | .hbm, ⟨19, _⟩ => ⟨S1600000x64, .f32⟩
  | .hbm, ⟨20, _⟩ => ⟨S1600000x64, .f32⟩
  | .hbm, ⟨21, _⟩ => ⟨S_, .f32⟩
  | .hbm, ⟨22, _⟩ => ⟨S100000x64, .f32⟩
  | .hbm, ⟨23, _⟩ => ⟨S1600000x1, .i32⟩
  | .hbm, ⟨24, _⟩ => ⟨S100000x64, .f32⟩
  | .hbm, ⟨25, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S5000x64_S5000x64 : S5000x64.ShapeCasts S5000x64
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)

variable [Facts₀]

def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v17) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S5000x64.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S100000x128 : Shape := ⟨2, ![100000, 128]⟩
abbrev S128x64 : Shape := ⟨2, ![128, 64]⟩
abbrev S2x1600000 : Shape := ⟨2, ![2, 1600000]⟩
abbrev S1600000 : Shape := ⟨1, ![1600000]⟩
abbrev S100000x64 : Shape := ⟨2, ![100000, 64]⟩
abbrev S1x1600000 : Shape := ⟨2, ![1, 1600000]⟩
abbrev S_ : Shape := ⟨0, ![]⟩
abbrev S1600000x1 : Shape := ⟨2, ![1600000, 1]⟩
abbrev S1600000x64 : Shape := ⟨2, ![1600000, 64]⟩

abbrev nBuf : Space → Nat
  | .hbm => 28
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x64, .f32⟩
  | .hbm, ⟨2, _⟩ => ⟨S2x1600000, .i32⟩
  | .hbm, ⟨3, _⟩ => ⟨S1600000, .f32⟩
  | .hbm, ⟨4, _⟩ => ⟨S100000x64, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x64, .f32⟩
  | .hbm, ⟨18, _⟩ => ⟨S1600000x1, .f32⟩
  | .hbm, ⟨19, _⟩ => ⟨S1600000x64, .f32⟩
  | .hbm, ⟨20, _⟩ => ⟨S1600000x64, .f32⟩
  | .hbm, ⟨21, _⟩ => ⟨S_, .f32⟩
  | .hbm, ⟨22, _⟩ => ⟨S100000x64, .f32⟩
  | .hbm, ⟨23, _⟩ => ⟨S1600000x1, .i32⟩
  | .hbm, ⟨24, _⟩ => ⟨S100000x64, .f32⟩
  | .hbm, ⟨25, _⟩ => ⟨S_, .f32⟩
  | .hbm, ⟨26, _⟩ => ⟨S100000x64, .f32⟩
  | .hbm, ⟨27, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_cst : Ref sig .tc := ⟨.hbm, 25, rfl⟩
abbrev main_call0_v0 : Ref sig .tc := ⟨.hbm, 26, rfl⟩
abbrev main_v18 : Ref sig .tc := ⟨.hbm, 27, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.Gcn.lean ====
/-
  One graph-convolution layer as a function of its four argument arrays, over the extended reals.

  With X the node features [100000 × 128], W the weights [128 × 64], E the two rows of edge endpoints (row 0 the
  destination, row 1 the source of each of the 1600000 edges) and a the edge weights:
    * `product X W`   — the dense product, entry (n, f) the sum over k of X[n, k] · W[k, f];
    * `aggregate S E a` — for every edge e the row S[src e] (a negative source index wrapped once by the node count,
      then read as the gather reads it) scaled by a[e], all such rows added into row dst e of a zero array;
    * `activate Y`     — the entrywise maximum of Y and zero.
  The layer is `activate (aggregate (product X W) E a)`. `aggregate` and `activate` are spelt with the host's own
  operations, so that they are the same term whichever program's run they are read from, and are never opened:
  the two programs differ only in how they compute the product and in where the maximum is taken.
-/
import proofs.«124277_j8658654069051_1_alg».proof.KernelIdeal
import Idealize.ShloMosaic.Lib.ValueIdx
import Idealize.ShloMosaic.Lib.IdealHost

noncomputable section

namespace Cert.KernelIdeal.Gcn

open Idealize.ShloMosaic Idealize.ShloMosaic.ValueIdx Cert.KernelIdeal
open Cert.KernelIdeal.Facts₀

variable {F : FTy → Type} [FloatOps F] [Facts]

/-- Entry (n, f) of the dense product: the sum over the 128 input features k of X[n, k] · W[k, f]. -/
def product (X : FVec Ideal S100000x128 .f32) (W : FVec Ideal S128x64 .f32) : FVec Ideal S100000x64 .f32 :=
  fun i => ∑ k : Fin 128, X (ix2 (⟨(i 0).val, (i 0).isLt⟩ : Fin 100000) k) * W (ix2 k (⟨(i 1).val, (i 1).isLt⟩ : Fin 64))

/-- The sparse aggregation: gather the source rows of `S`, scale each by its edge's weight, add into the destination rows. -/
def aggregate (S : (⟨S100000x64, .f32⟩ : BufTy).Contents (Elt F)) (E : (⟨S2x1600000, .i32⟩ : BufTy).Contents (Elt F))
    (a : (⟨S1600000, .f32⟩ : BufTy).Contents (Elt F)) : (⟨S100000x64, .f32⟩ : BufTy).Contents (Elt F) :=
  Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (shapeCast _ (extractStridedSlice S1x1600000 ![0, 0] E slices_S2x1600000_S1x1600000_0_0) shapeCasts_S1x1600000_S1600000)) (mulf (Host.gather gather_S100000x64_S1600000x1_S1600000x64_1_0_n_n_0_1_164 S (broadcastInDim S1600000x1 ![0] bcast_S1600000_S1600000x1_0 (select (cmpi .slt (shapeCast _ (extractStridedSlice S1x1600000 ![1, 0] E slices_S2x1600000_S1x1600000_1_0) shapeCasts_S1x1600000_S1600000) (broadcastInDim S1600000 ![] bcast_S_S1600000 (constantI S_ 32 0#32))) (addi (shapeCast _ (extractStridedSlice S1x1600000 ![1, 0] E slices_S2x1600000_S1x1600000_1_0) shapeCasts_S1x1600000_S1600000) (broadcastInDim S1600000 ![] bcast_S_S1600000 (constantI S_ 32 100000#32))) (shapeCast _ (extractStridedSlice S1x1600000 ![1, 0] E slices_S2x1600000_S1x1600000_1_0) shapeCasts_S1x1600000_S1600000)))) (broadcastInDim S1600000x64 ![0, 1] bcast_S1600000x1_S1600000x64_0_1 (broadcastInDim S1600000x1 ![0] bcast_S1600000_S1600000x1_0 a)))

/-- The activation: the entrywise maximum with zero. -/
def activate (Y : (⟨S100000x64, .f32⟩ : BufTy).Contents (Elt F)) : (⟨S100000x64, .f32⟩ : BufTy).Contents (Elt F) :=
  maximumf Y (broadcastInDim S100000x64 ![] bcast_S_S100000x64 (constant S_ .f32 0x00000000#32))

/-- At an entry the activation is the maximum of that entry and the zero word's value. -/
theorem activate_apply (Y : (⟨S100000x64, .f32⟩ : BufTy).Contents (Elt F)) (i : S100000x64.Idx) :
    activate Y i = FloatOps.maximumf (Y i) (FloatOps.ofBits .f32 0x00000000#32) := by
  unfold activate maximumf
  rw [broadcastInDim_scalar_apply]
  rfl

end Cert.KernelIdeal.Gcn

end
-- ==== Proof.LibMatmulAt.lean ====
/-
  A matrix product into a zero accumulator, read at one entry over the extended reals.

  For dimension numbers that contract the left operand's second axis with the right operand's first, with no batch
  axis — so that the left operand is read at (row, k) and the right at (k, column) — the entry (p, q) of the product
  of an [A × K] and a [K × B] matrix is `∑ₖ l[p, k] · r[k, q]`. The four facts about where the dimension numbers
  read their operands are hypotheses, so that the lemma serves any printed record of this kind.
-/
import Idealize.ShloMosaic.PureOps.Ideal.Laws
import Idealize.ShloMosaic.Lib.ValueIdx

noncomputable section

namespace Idealize.ShloMosaic.MatmulAt

open Idealize.ShloMosaic Idealize.ShloMosaic.ValueIdx

/-- Entry (p, q) of `l · r` accumulated into zero is the sum over the contracted axis of `l[p, k] · r[k, q]`, for
    dimension numbers `D` whose one contracted axis has extent `K` (`hr`, `hs`) and which read the left operand at
    (row, k) (`hl0`, `hl1`) and the right at (k, column) (`hr0`, `hr1`). -/
theorem matmul_zero_at {A K B : Nat} {φ₁ φ₂ : FTy}
    (D : DotDims (⟨2, ![A, K]⟩ : Shape) (⟨2, ![K, B]⟩ : Shape) (⟨2, ![A, B]⟩ : Shape))
    (hr : D.contr.rank = 1) (hs : D.contr.size ⟨0, by omega⟩ = K)
    (hl0 : ∀ (i : (⟨2, ![A, B]⟩ : Shape).Idx) (q : D.contr.Idx), (D.lhsIdx i q 0).val = (i 0).val)
    (hl1 : ∀ (i : (⟨2, ![A, B]⟩ : Shape).Idx) (q : D.contr.Idx), (D.lhsIdx i q 1).val = (q ⟨0, by omega⟩).val)
    (hr0 : ∀ (i : (⟨2, ![A, B]⟩ : Shape).Idx) (q : D.contr.Idx), (D.rhsIdx i q 0).val = (q ⟨0, by omega⟩).val)
    (hr1 : ∀ (i : (⟨2, ![A, B]⟩ : Shape).Idx) (q : D.contr.Idx), (D.rhsIdx i q 1).val = (i 1).val)
    (prec : Option ContractPrecision) (l : FVec Ideal (⟨2, ![A, K]⟩ : Shape) φ₁) (r : FVec Ideal (⟨2, ![K, B]⟩ : Shape) φ₂)
    (p : Fin A) (q : Fin B) :
    FloatOps.matmul D prec l r (constant (F := Ideal) (⟨2, ![A, B]⟩ : Shape) .f32 0x00000000#32) (ix2 p q)
      = ∑ k : Fin K, l (ix2 p k) * r (ix2 k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Idealize.ShloMosaic.MatmulAt

end
-- ==== Proof.Region0.lean ====
/-
  The first region (the dense product), read as a value over the extended reals.

  The region walks the [100000 × 128] feature array in twenty row blocks of 5000 rows; the [128 × 64] weight array is
  one block, the same at every point. At grid point t it loads feature block t and the weights, narrows both to bf16
  (the identity on extended reals), multiplies them into a zero accumulator and writes the [5000 × 64] result back as
  block t of its output array. Entry (p, q) of that result is the sum over k of block[p, k] · W[k, q]; block[p, k] is
  X[5000 t + p, k]; so what point t writes back is block t of `product X W`. The twenty blocks tile the output array,
  which therefore ends holding `product X W`. Stated for any contents `V` the region may be entered from.
-/
import proofs.«124277_j8658654069051_1_alg».proof.Proof.Gen.KernelIdeal.Frame
import proofs.«124277_j8658654069051_1_alg».proof.Proof.Gcn
import proofs.«124277_j8658654069051_1_alg».proof.Proof.LibMatmulAt
import Idealize.ShloMosaic.Lib.Pipeline.Value

set_option maxRecDepth 16384

noncomputable section

namespace Cert.KernelIdeal.Region0

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Gcn

variable (V : (c : Dev nD) → (b : Ref sig .tc) → Buf (Elt Ideal) ((c : Thread nD τ).loc b))

/-- The zero offset of a whole-block access. -/
theorem origin : (![0, 0] : Fin 2 → Nat) = fun _ => 0 := funext fun a => by fin_cases a <;> rfl

/-! ## Where the block product's dimension numbers read their operands -/

/-- The left operand's row is the result's row. -/
theorem lhs_row (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
/-- The left operand's column is the contracted index. -/
theorem lhs_col (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
/-- The right operand's row is the contracted index. -/
theorem rhs_row (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
/-- The right operand's column is the result's column. -/
theorem rhs_col (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-! ## The body's stored value at an entry -/

/-- Entry `j` of what the body stores: the sum over k of the loaded feature block's [j₀, k] times the loaded
    weights' [k, j₁] — the bf16 narrowing is the identity and the accumulator starts at zero. -/
theorem matmul_tile_at (x : Vec Ideal S5000x128 .f32) (w : Vec Ideal S128x64 .f32) (j : S5000x64.Idx) :
    k0_pay1 x w j = ∑ k : Fin 128, x (ix2 (⟨(j 0).val, (j 0).isLt⟩ : Fin 5000) k) * w (ix2 k (⟨(j 1).val, (j 1).isLt⟩ : Fin 64)) := by
  obtain ⟨p, q, rfl⟩ : ∃ (p : Fin 5000) (q : Fin 64), j = ix2 p q := ⟨j 0, j 1, eq_ix2 j⟩
  unfold k0_pay1
  exact MatmulAt.matmul_zero_at dot_S5000x128_S128x64_S5000x64_1_0_0_1_n_n rfl rfl lhs_row lhs_col rhs_row rhs_col none _ _ p q

/-! ## From the blocks to the array -/

/-- Where the blocks sit, decided over the twenty grid points: the feature block and the output block are row block
    number t, column block 0; the weights are block (0, 0). -/
theorem block_rows : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the feature and weight arrays. -/
theorem written_block (c : Dev nD) (t : Fin cfg0.N) :
    (dat0 V c).flushed 2 t = ((cfg0.win 2).blk t).view.read (Elt Ideal) (product (V c main_arg0) (V c main_arg1)) := by
  show (cfg0.win 2).cut (grid0.coords t) ((dat0 V c).after 2 t) = _
  rw [after0_2]
  unfold out0_2
  rw [View.canon_unit_zero origin]
  simp only [View.ld_unit_zero (S := S5000x128) origin, View.ld_unit_zero (S := S128x64) origin]
  obtain ⟨e0, e1, e2, e3, e4, e5⟩ := block_rows t
  funext j
  show k0_pay1 (iblk0 V c 0 t) (iblk0 V c 1 t) j = product (V c main_arg0) (V c main_arg1) (((cfg0.win 2).blk t).view.emb j)
  refine (matmul_tile_at (iblk0 V c 0 t) (iblk0 V c 1 t) j).trans ?_
  unfold product
  refine Finset.sum_congr rfl fun k _ => ?_
  have hj0 : (j 0).val < 5000 := (j 0).isLt
  have hj1 : (j 1).val < 64 := (j 1).isLt
  -- the feature block's entry [j₀, k] is X[5000 t + j₀, k]; the weight block's entry [k, j₁] is W[k, j₁]
  have hx : (iblk0 V c 0 t : S5000x128.Idx → EReal) (ix2 (⟨(j 0).val, (j 0).isLt⟩ : Fin 5000) k)
      = (V c main_arg0 : S100000x128.Idx → EReal) (ix2 (⟨((((cfg0.win 2).blk t).view.emb j) 0).val, ((((cfg0.win 2).blk t).view.emb j) 0).isLt⟩ : Fin 100000) k) := by
    show V c main_arg0 (((cfg0.win 0).blk t).view.emb (ix2 (⟨(j 0).val, (j 0).isLt⟩ : Fin 5000) k)) = V c main_arg0 _
    congr 1
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have hw : (iblk0 V c 1 t : S128x64.Idx → EReal) (ix2 k (⟨(j 1).val, (j 1).isLt⟩ : Fin 64))
      = (V c main_arg1 : S128x64.Idx → EReal) (ix2 k (⟨((((cfg0.win 2).blk t).view.emb j) 1).val, ((((cfg0.win 2).blk t).view.emb j) 1).isLt⟩ : Fin 64)) := by
    show V c main_arg1 (((cfg0.win 1).blk t).view.emb (ix2 k (⟨(j 1).val, (j 1).isLt⟩ : Fin 64))) = V c main_arg1 _
    congr 1
    funext a; apply Fin.ext
    match a with
    | ⟨0, _⟩ => show win0_1.index t (0 : Fin 2) * 128 + 1 * k.val = k.val; omega
    | ⟨1, _⟩ => show win0_1.index t (1 : Fin 2) * 64 + 1 * (j 1).val = win0_2.index t (1 : Fin 2) * 64 + 1 * (j 1).val; omega
  rw [hx, hw]

/-- An entry of the array lies in point `t`'s output block iff each coordinate lies in the block's range on its axis. -/
theorem in_block (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v0).slice (win0_2.rect t)).set ↔ _
  rw [View.set_slice_whole, Rect.mem_set_unit]
  exact Iff.rfl

/-- Every entry lies in the block of the point numbered by its row divided by 5000. -/
theorem tiled (i : S100000x64.Idx) : ∃ t : Fin cfg0.N, (cfg0.win 2).flush t = true ∧ i ∈ ((cfg0.win 2).blk t).view.set := by
  have h0 : (i 0).val < 100000 := (i 0).isLt
  have h1 : (i 1).val < 64 := (i 1).isLt
  have hN : cfg0.N = 20 := N_0
  refine ⟨⟨(i 0).val / 5000, by rw [hN]; omega⟩, flush0_2 _, ?_⟩
  rw [in_block]
  obtain ⟨-, -, -, -, e4, e5⟩ := block_rows ⟨(i 0).val / 5000, by rw [hN]; omega⟩
  intro a
  match a with
  | ⟨0, _⟩ => show win0_2.index _ (0 : Fin 2) * 5000 ≤ (i 0).val ∧ (i 0).val < win0_2.index _ (0 : Fin 2) * 5000 + 5000; rw [e4]; show (i 0).val / 5000 * 5000 ≤ (i 0).val ∧ (i 0).val < (i 0).val / 5000 * 5000 + 5000; omega
  | ⟨1, _⟩ => show win0_2.index _ (1 : Fin 2) * 64 ≤ (i 1).val ∧ (i 1).val < win0_2.index _ (1 : Fin 2) * 64 + 64; rw [e5]; omega

/-- The region's output array ends holding the product of the feature and weight arrays. -/
theorem output (c : Dev nD) : (dat0 V c).arrAt 2 cfg0.N = product (V c main_arg0) (V c main_arg1) :=
  (dat0 V c).arrAt_eq_of_cover 2 (product (V c main_arg0) (V c main_arg1)) (fun t _ => written_block V c t) tiled

end Cert.KernelIdeal.Region0

end
-- ==== Proof.Region1.lean ====
/-
  The second region (the entrywise maximum with zero), read as a value.

  The region walks the [100000 × 64] array in twenty row blocks of 5000 rows. At grid point t it loads block t of its
  input array, takes the maximum of every entry with zero, and writes the result back as block t of its output array.
  Input and output blocks sit at the same rows (both index maps send t to block (t, 0)), and the maximum acts entry by
  entry, so what point t writes back is block t of `activate` of the whole input array. The twenty blocks tile the
  output array (row r lies in block r / 5000), so the output array ends holding `activate` of the input array.
  Stated for any contents `V` the region may be entered from, and for any float instance.
-/
import proofs.«124277_j8658654069051_1_alg».proof.Proof.Gen.KernelIdeal.Frame
import proofs.«124277_j8658654069051_1_alg».proof.Proof.Gcn
import Idealize.ShloMosaic.Lib.Pipeline.Value

set_option maxRecDepth 16384

noncomputable section

namespace Cert.KernelIdeal.Region1

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Gcn

variable {F : FTy → Type} [FloatOps F]
variable (V : (c : Dev nD) → (b : Ref sig .tc) → Buf (Elt F) ((c : Thread nD τ).loc b))

/-- The zero offset of a whole-block access. -/
theorem origin : (![0, 0] : Fin 2 → Nat) = fun _ => 0 := funext fun a => by fin_cases a <;> rfl

/-- The body's stored value at an entry: the loaded entry's maximum with zero. -/
theorem relu_tile_at (x : Vec F S5000x64 .f32) (j : S5000x64.Idx) :
    k1_pay1 x j = FloatOps.maximumf (x j) (FloatOps.ofBits .f32 0x00000000#32) := by
  unfold k1_pay1
  rw [shapeCast_self]
  rfl

/-- Where the blocks sit, decided over the twenty grid points: input and output blocks share their row block, which is
    the point's number, and both stay in column block 0. -/
theorem block_rows : ∀ t : Fin cfg1.N, win1_0.index t (0 : Fin 2) = win1_1.index t (0 : Fin 2)
    ∧ win1_0.index t (1 : Fin 2) = 0 ∧ win1_1.index t (1 : Fin 2) = 0 ∧ win1_1.index t (0 : Fin 2) = t.val :=
  (by decide +kernel : ∀ t : Fin grid1.N, _)

/-- What point `t` writes back is block `t` of the activated input array. -/
theorem written_block (c : Dev nD) (t : Fin cfg1.N) :
    (dat1 V c).flushed 1 t = ((cfg1.win 1).blk t).view.read (Elt F) (activate (V c main_v17)) := by
  show (cfg1.win 1).cut (grid1.coords t) ((dat1 V c).after 1 t) = _
  rw [after1_1]
  unfold out1_1
  rw [View.canon_unit_zero origin]
  simp only [View.ld_unit_zero (S := S5000x64) origin]
  funext j
  show k1_pay1 (iblk1 V c 0 t) j = activate (V c main_v17) (((cfg1.win 1).blk t).view.emb j)
  rw [activate_apply]
  refine (relu_tile_at (iblk1 V c 0 t) j).trans ?_
  -- the two index maps are one function, so the input block's entry `j` is the input array's entry at `j`'s place in the output block
  rfl

/-- An entry of the array lies in point `t`'s output block iff each coordinate lies in the block's range on its axis. -/
theorem in_block (t : Fin cfg1.N) (i : S100000x64.Idx) :
    i ∈ ((cfg1.win 1).blk t).view.set ↔ ∀ a : Fin 2, win1_1.index t a * S5000x64.size a ≤ (i a).val ∧ (i a).val < win1_1.index t a * S5000x64.size a + S5000x64.size a := by
  show i ∈ ((View.whole main_v18).slice (win1_1.rect t)).set ↔ _
  rw [View.set_slice_whole, Rect.mem_set_unit]
  exact Iff.rfl

/-- Every entry lies in the block of the point numbered by its row divided by 5000. -/
theorem tiled (i : S100000x64.Idx) : ∃ t : Fin cfg1.N, (cfg1.win 1).flush t = true ∧ i ∈ ((cfg1.win 1).blk t).view.set := by
  have h0 : (i 0).val < 100000 := (i 0).isLt
  have h1 : (i 1).val < 64 := (i 1).isLt
  have hN : cfg1.N = 20 := N_1
  refine ⟨⟨(i 0).val / 5000, by rw [hN]; omega⟩, flush1_1 _, ?_⟩
  rw [in_block]
  obtain ⟨-, -, e2, e3⟩ := block_rows ⟨(i 0).val / 5000, by rw [hN]; omega⟩
  intro a
  match a with
  | ⟨0, _⟩ => show win1_1.index _ (0 : Fin 2) * 5000 ≤ (i 0).val ∧ (i 0).val < win1_1.index _ (0 : Fin 2) * 5000 + 5000; rw [e3]; show (i 0).val / 5000 * 5000 ≤ (i 0).val ∧ (i 0).val < (i 0).val / 5000 * 5000 + 5000; omega
  | ⟨1, _⟩ => show win1_1.index _ (1 : Fin 2) * 64 ≤ (i 1).val ∧ (i 1).val < win1_1.index _ (1 : Fin 2) * 64 + 64; rw [e2]; omega

/-- The region's output array ends holding the activated input array. -/
theorem output (c : Dev nD) : (dat1 V c).arrAt 1 cfg1.N = activate (V c main_v17) :=
  (dat1 V c).arrAt_eq_of_cover 1 (activate (V c main_v17)) (fun t _ => written_block V c t) tiled

end Cert.KernelIdeal.Region1

end
-- ==== Proof.KernelValue.lean ====
/-
  The idealized kernel program's result, as the layer of its argument arrays.

  The program is: the product region; twenty host operations; the maximum region. Reading the buffer contents at the
  segment boundaries back to front:
    * the result array ends at what the maximum region's write-backs leave, which is `activate` of the region's input
      array as entered (Region1);
    * that input array was written by the last of the host operations; the host stretch composed is `aggregate` of the
      product region's output array, the edge endpoints and the edge weights as the product region left them;
    * the product region writes neither the endpoints nor the weights, and leaves its output array at `product` of the
      feature and weight arrays as launched (Region0).
  So the result is `activate (aggregate (product X W) E a)` of the launch contents.
-/
import proofs.«124277_j8658654069051_1_alg».proof.Proof.KernelRun
import proofs.«124277_j8658654069051_1_alg».proof.Proof.Region0
import proofs.«124277_j8658654069051_1_alg».proof.Proof.Region1
import Idealize.ShloMosaic.Lib.StableHlo.Run

set_option maxRecDepth 16384

noncomputable section

namespace Cert.KernelIdeal.Layer

open Idealize.ShloMosaic Idealize.ShloMosaic.TcCoe Idealize.SL.Sem Idealize.ShloMosaic.StableHlo
open Cert.KernelIdeal Cert.KernelIdeal.Gen Cert.KernelIdeal.Gcn

variable (m : (ℓ : Loc nD τ sig) → Buf (Elt Ideal) ℓ) (ρ : Dev nD → PrngReg)

/-- The layer of the launch contents on core `c`. -/
abbrev layer (c : Dev nD) : Buf (Elt Ideal) ((c.tc : Thread nD τ).loc main_v18) :=
  activate (aggregate (product (m ((c.tc : Thread nD τ).loc main_arg0)) (m ((c.tc : Thread nD τ).loc main_arg1)))
    (m ((c.tc : Thread nD τ).loc main_arg2)) (m ((c.tc : Thread nD τ).loc main_arg3)))

/-- The host stretch, composed: the maximum region's input array as entered is `aggregate` of three arrays as the
    product region left them. -/
theorem stretch (c : Dev nD) :
    V2 m ρ c main_v17 = aggregate (V1 m ρ c main_v0) (V1 m ρ c main_arg2) (V1 m ρ c main_arg3) := by
  show StableHlo.after hostOps1 (W1 m ρ c) (Proc.devRef .tc main_v17) = _
  after_results
  rfl

/-- The product region leaves its output array at the product of the launched features and weights. -/
theorem product_left (c : Dev nD) :
    V1 m ρ c main_v0 = product (m ((c.tc : Thread nD τ).loc main_arg0)) (m ((c.tc : Thread nD τ).loc main_arg1)) :=
  (W1_arr m ρ c 2).trans (Region0.output (V0 m ρ) c)

/-- The product region does not write the edge endpoints. -/
theorem endpoints_left (c : Dev nD) : V1 m ρ c main_arg2 = m ((c.tc : Thread nD τ).loc main_arg2) :=
  W1_of_ne m ρ c main_arg2 (by decide)

/-- The product region does not write the edge weights. -/
theorem weights_left (c : Dev nD) : V1 m ρ c main_arg3 = m ((c.tc : Thread nD τ).loc main_arg3) :=
  W1_of_ne m ρ c main_arg3 (by decide)

/-- The result array after the run is the layer of the launch contents. -/
theorem result (c : Dev nD) : (dat1 (V2 m ρ) c).arrAt 1 cfg1.N = layer m c := by
  rw [Region1.output (V2 m ρ) c, stretch m ρ c, product_left m ρ c, endpoints_left m ρ c, weights_left m ρ c]

/-- Every weakly fair execution of the idealized kernel program terminates, nothing faulting, with the result array
    at the layer of the launch contents and the arguments as launched. -/
theorem run : θ_run defs (onTc (τ := τ) (main (F := Ideal))) ⟨m, fun _ => 0, ρ⟩ (fun r => ∀ c : Dev nD,
      r.2.mem ((c.tc : Thread nD τ).loc main_v18) = layer m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (result m ρ c), (h c).2⟩) (Cert.KernelIdeal.Run.run_named m ρ)

end Cert.KernelIdeal.Layer

end
-- ==== Proof.RefValue.lean ====
/-
  The idealized reference's result is the same layer of the argument arrays.

  The reference is host operations only: a `dot_general` of the features and weights, then the very gather, scaling
  and scatter-add the kernel's program applies between its two regions, then the maximum with zero. Over the extended
  reals the `dot_general` entry (n, f) is the sum over the contracted axis of X[n, k] · W[k, f] (the generated reading of that
  operation), which is `product`; everything after it is `aggregate` and `activate` as they are spelt, term for term.
-/
import proofs.«124277_j8658654069051_1_alg».proof.Proof.Gen.ReferenceIdeal.Read
import proofs.«124277_j8658654069051_1_alg».proof.Proof.Gen.KernelIdeal
import proofs.«124277_j8658654069051_1_alg».proof.Proof.Gcn

noncomputable section

namespace Cert.ReferenceIdeal.Layer

open Idealize.ShloMosaic Idealize.ShloMosaic.ValueIdx
open Cert.ReferenceIdeal Cert.ReferenceIdeal.Gen
open Cert.KernelIdeal.Gcn

/-- The reference's `dot_general` of the features and weights is their product. -/
theorem dot_is_product (X : FVec Ideal S100000x128 .f32) (W : FVec Ideal S128x64 .f32) :
    Host.dotGeneral dot_S100000x128_S128x64_S100000x64_1_0_0_1_n_n none X W = product X W := by
  funext i
  refine (Read.val_main_v0_apply X W i).trans ?_
  unfold product
  refine Finset.sum_congr rfl fun k _ => ?_
  have el : Read.lidx_main_v0 i k = ix2 (⟨(i 0).val, (i 0).isLt⟩ : Fin 100000) k :=
    funext fun a => Fin.ext (by match a with | ⟨0, _⟩ => rfl | ⟨1, _⟩ => rfl)
  have er : Read.ridx_main_v0 i k = ix2 k (⟨(i 1).val, (i 1).isLt⟩ : Fin 64) :=
    funext fun a => Fin.ext (by match a with | ⟨0, _⟩ => rfl | ⟨1, _⟩ => rfl)
  rw [el, er]

/-- The reference's composed result term is the layer: its first operation is `product`, and the rest is
    `aggregate` then `activate`, operation for operation. -/
theorem result_eq (X : FVec Ideal S100000x128 .f32) (W : FVec Ideal S128x64 .f32)
    (E : (⟨S2x1600000, .i32⟩ : BufTy).Contents (Elt Ideal)) (a : FVec Ideal S1600000 .f32) :
    maximumf (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (shapeCast _ (extractStridedSlice S1x1600000 ![0, 0] E slices_S2x1600000_S1x1600000_0_0) shapeCasts_S1x1600000_S1600000)) (mulf (Host.gather gather_S100000x64_S1600000x1_S1600000x64_1_0_n_n_0_1_164 (Host.dotGeneral dot_S100000x128_S128x64_S100000x64_1_0_0_1_n_n none X W) (broadcastInDim S1600000x1 ![0] bcast_S1600000_S1600000x1_0 (select (cmpi .slt (shapeCast _ (extractStridedSlice S1x1600000 ![1, 0] E slices_S2x1600000_S1x1600000_1_0) shapeCasts_S1x1600000_S1600000) (broadcastInDim S1600000 ![] bcast_S_S1600000 (constantI S_ 32 0#32))) (addi (shapeCast _ (extractStridedSlice S1x1600000 ![1, 0] E slices_S2x1600000_S1x1600000_1_0) shapeCasts_S1x1600000_S1600000) (broadcastInDim S1600000 ![] bcast_S_S1600000 (constantI S_ 32 100000#32))) (shapeCast _ (extractStridedSlice S1x1600000 ![1, 0] E slices_S2x1600000_S1x1600000_1_0) shapeCasts_S1x1600000_S1600000)))) (broadcastInDim S1600000x64 ![0, 1] bcast_S1600000x1_S1600000x64_0_1 (broadcastInDim S1600000x1 ![0] bcast_S1600000_S1600000x1_0 a)))) (broadcastInDim S100000x64 ![] bcast_S_S100000x64 (constant S_ .f32 0x00000000#32))
      = activate (aggregate (product X W) E a) := by
  rw [dot_is_product]
  rfl

end Cert.ReferenceIdeal.Layer

end
-- ==== Proof.lean ====
/-
  A graph-convolution layer: the Pallas program against its jnp reference, over the extended reals.

  Both programs compute, from node features X [100000 × 128], weights W [128 × 64], edge endpoints E [2 × 1600000] and
  edge weights a [1600000],
      relu( Σ over edges e of  a[e] · (X·W)[src e, :]  added into row dst e ).
  The kernel's program computes X·W in a pipelined region (row blocks of 5000, operands narrowed to bf16, accumulated in
  f32 from zero), applies the gather, scaling and scatter-add on the host, and takes the maximum with zero in a second
  pipelined region; the reference does all of it on the host. Over the extended reals the narrowing is the identity and
  the block product into a zero accumulator is the plain sum over the contracted axis, so both compute
  `activate (aggregate (product X W) E a)` (Proof/Gcn.lean):
    * the kernel's side — Proof/KernelRun.lean (the run with the result array named), Proof/Region0.lean and
      Proof/Region1.lean (each region's output array as a function of its input arrays), Proof/KernelValue.lean (the
      boundaries' contents chained through the host stretch);
    * the reference's side — its generated run, and Proof/RefValue.lean (its `dot_general` is `product`; the rest is the
      same term).
  No law of arithmetic beyond the reading of a matrix product as a sum is used, so the finiteness of the inputs is
  never opened. The idealization rewrote nothing, so `preserves` is the true proposition. The frames are the generated
  ones; the reference's is its generated run with the result dropped.
-/
import proofs.«124277_j8658654069051_1_alg».proof.Defs
import proofs.«124277_j8658654069051_1_alg».proof.Proof.Gen.Kernel
import proofs.«124277_j8658654069051_1_alg».proof.Proof.Gen.Kernel.Frame
import proofs.«124277_j8658654069051_1_alg».proof.Proof.Gen.KernelIdeal
import proofs.«124277_j8658654069051_1_alg».proof.Proof.Gen.KernelIdeal.Frame
import proofs.«124277_j8658654069051_1_alg».proof.Proof.Gen.ReferenceIdeal
import proofs.«124277_j8658654069051_1_alg».proof.Proof.Gen.Pre_finite_inputs
import proofs.«124277_j8658654069051_1_alg».proof.Proof.Gen.ReferenceIdeal.Run
import proofs.«124277_j8658654069051_1_alg».proof.Proof.Gen.ReferenceIdeal.Read
import proofs.«124277_j8658654069051_1_alg».proof.Proof.KernelValue
import proofs.«124277_j8658654069051_1_alg».proof.Proof.RefValue
import Idealize.ShloMosaic.Adequacy
import Idealize.ShloMosaic.Init

noncomputable section

namespace Cert.Proof

open Idealize.ShloMosaic Idealize.SL.Sem

/-- The printed kernel program runs and leaves its arguments as launched. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference is host operations only: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the four arguments both idealized programs end with the result array at the layer
    of those arguments. -/
theorem algebraic : Cert.algebraic_KernelIdeal_ReferenceIdeal := by
  intro m ρ m' ρ' _ hagree
  refine ⟨fun c => Cert.KernelIdeal.Layer.layer m c, Cert.KernelIdeal.Layer.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact Cert.ReferenceIdeal.Layer.result_eq _ _ _ _

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
